-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x256x5 : Shape := ⟨4, ![128, 256, 256, 5]⟩
abbrev S_ : Shape := ⟨0, ![]⟩

class Facts : Prop where
  bcast_S_S128x256x256x5 : S_.BroadcastsInDim S128x256x256x5 (![] : Fin 0 → Fin S128x256x256x5.rank)
  reducesTo_S128x256x256x5_S_d0_1_2_3 : S128x256x256x5.ReducesTo [0, 1, 2, 3] S_
  h_S_ : 0 < S_.numel

variable [Facts]

def fn {F : FTy → Type} [FloatOps F] (main_arg0 : FVec F S128x256x256x5 .f32) (main_arg1 : FVec F S128x256x256x5 .f32) : IVec S_ 1 :=
  let main_v0 : FVec F S128x256x256x5 .f32 := Host.absf main_arg0
  let main_cst : FVec F S_ .f32 := constant S_ .f32 0x7F800000#32
  let main_v1 : FVec F S128x256x256x5 .f32 := broadcastInDim S128x256x256x5 ![] bcast_S_S128x256x256x5 main_cst
  let main_v2 : IVec S128x256x256x5 1 := cmpf .olt main_v0 main_v1
  let main_c : IVec S_ 1 := constantI S_ 1 1#1
  let main_v3 : IVec S_ 1 := (fun x v => Host.reduce IntOp.andi x v reducesTo_S128x256x256x5_S_d0_1_2_3 h_S_) main_v2 main_c
  let main_v4 : FVec F S128x256x256x5 .f32 := Host.absf main_arg1
  let main_cst_0 : FVec F S_ .f32 := constant S_ .f32 0x7F800000#32
  let main_v5 : FVec F S128x256x256x5 .f32 := broadcastInDim S128x256x256x5 ![] bcast_S_S128x256x256x5 main_cst_0
  let main_v6 : IVec S128x256x256x5 1 := cmpf .olt main_v4 main_v5
  let main_c_1 : IVec S_ 1 := constantI S_ 1 1#1
  let main_v7 : IVec S_ 1 := (fun x v => Host.reduce IntOp.andi x v reducesTo_S128x256x256x5_S_d0_1_2_3 h_S_) main_v6 main_c_1
  let main_v8 : IVec S_ 1 := andi main_v3 main_v7
  main_v8
-- ==== Kernel.lean ====
abbrev S128x256x256x5 : Shape := ⟨4, ![128, 256, 256, 5]⟩
abbrev S32x8x128 : Shape := ⟨3, ![32, 8, 128]⟩
abbrev S4x8x256x5 : Shape := ⟨4, ![4, 8, 256, 5]⟩
abbrev S1x8x128 : Shape := ⟨3, ![1, 8, 128]⟩
abbrev S8x128 : Shape := ⟨2, ![8, 128]⟩
abbrev S4x8x256x1 : Shape := ⟨4, ![4, 8, 256, 1]⟩
abbrev S4x8x256 : Shape := ⟨3, ![4, 8, 256]⟩
abbrev S4x8x256x4 : Shape := ⟨4, ![4, 8, 256, 4]⟩
abbrev S4x8 : Shape := ⟨2, ![4, 8]⟩
abbrev S4 : Shape := ⟨1, ![4]⟩
abbrev S1x4 : Shape := ⟨2, ![1, 4]⟩
abbrev S1 : Shape := ⟨1, ![1]⟩
abbrev S1x1 : Shape := ⟨2, ![1, 1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S128x256x256x5, .f32⟩
  | .hbm, ⟨1, _⟩ => ⟨S128x256x256x5, .f32⟩
  | .hbm, ⟨2, _⟩ => ⟨S32x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S4x8x256x5, .f32⟩
  | .local _ .vmem, ⟨1, _⟩ => ⟨S4x8x256x5, .f32⟩
  | .local _ .vmem, ⟨2, _⟩ => ⟨S4x8x256x5, .f32⟩
  | .local _ .vmem, ⟨3, _⟩ => ⟨S4x8x256x5, .f32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S128x256x256x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x8x256x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x256x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S4x8x256x5_S4x8x256x5_0_0_0_0 : ∀ a, (![0, 0, 0, 0] : Fin 4 → Nat) a + S4x8x256x5.size a ≤ S4x8x256x5.size a
  h_S4x8x256x5 : 0 < S4x8x256x5.numel
  slices_S4x8x256x5_o0_0_0_0_S4x8x256x1 : S4x8x256x5.Slices ![0, 0, 0, 0] S4x8x256x1
  shapeCasts_S4x8x256x1_S4x8x256 : S4x8x256x1.ShapeCasts S4x8x256
  slices_S4x8x256x5_o0_0_0_1_S4x8x256x4 : S4x8x256x5.Slices ![0, 0, 0, 1] S4x8x256x4
  reduces_S4x8x256x4_S4x8x256 : S4x8x256x4.Reduces [3] S4x8x256
  reduces_S4x8x256_S4x8 : S4x8x256.Reduces [2] S4x8
  reduces_S4x8_S4 : S4x8.Reduces [1] S4
  shapeCasts_S4_S1x4 : S4.ShapeCasts S1x4
  reduces_S1x4_S1 : S1x4.Reduces [1] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S32x8x128_S_d0_1_2 : S32x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x256x5.size a ≤ S128x256x256x5.size a
  hwx0_0 : ∀ i : grid0.Coords, EltTy.bits .f32 = 32 ∨ (Rect.block (s := S128x256x256x5) S4x8x256x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x8x256x5.size a ≤ S128x256x256x5.size a
  hwx0_1 : ∀ i : grid0.Coords, EltTy.bits .f32 = 32 ∨ (Rect.block (s := S128x256x256x5) S4x8x256x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S32x8x128.size a
  hwx0_2 : ∀ i : grid0.Coords, EltTy.bits .f32 = 32 ∨ (Rect.block (s := S32x8x128) S1x8x128.size (cc0_transform_2 i) (hinb0_2 i)).WholeWords (EltTy.packing .f32)

variable [Facts₀]

abbrev win0_0 : Pipeline.Window sig grid0 :=
  Pipeline.Window.ofSpec (Memref.whole main_arg0) S4x8x256x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x8x256x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x256x256x5 : Shape := ⟨4, ![128, 256, 256, 5]⟩
abbrev S128x256x256x1 : Shape := ⟨4, ![128, 256, 256, 1]⟩
abbrev S128x256x256 : Shape := ⟨3, ![128, 256, 256]⟩
abbrev S_ : Shape := ⟨0, ![]⟩
abbrev S128x256x256x4 : Shape := ⟨4, ![128, 256, 256, 4]⟩

abbrev nBuf : Space → Nat
  | .hbm => 32
  | .vmem => 0
  | .smem => 0
  | _ => 0

abbrev bufTy : (tb : Table) → Fin (tcTables nBuf tb) → BufTy
  | .hbm, ⟨0, _⟩ => ⟨S128x256x256x5, .f32⟩
  | .hbm, ⟨1, _⟩ => ⟨S128x256x256x5, .f32⟩
  | .hbm, ⟨2, _⟩ => ⟨S128x256x256x1, .f32⟩
  | .hbm, ⟨3, _⟩ => ⟨S128x256x256, .f32⟩
  | .hbm, ⟨4, _⟩ => ⟨S128x256x256x1, .f32⟩
  | .hbm, ⟨5, _⟩ => ⟨S128x256x256, .f32⟩
  | .hbm, ⟨6, _⟩ => ⟨S_, .f32⟩
  | .hbm, ⟨7, _⟩ => ⟨S128x256x256, .f32⟩
  | .hbm, ⟨8, _⟩ => ⟨S128x256x256, .i1⟩
  | .hbm, ⟨9, _⟩ => ⟨S128x256x256x4, .f32⟩
  | .hbm, ⟨10, _⟩ => ⟨S128x256x256x4, .f32⟩
  | .hbm, ⟨11, _⟩ => ⟨S128x256x256x4, .f32⟩
  | .hbm, ⟨12, _⟩ => ⟨S128x256x256x4, .f32⟩
  | .hbm, ⟨13, _⟩ => ⟨S_, .f32⟩
  | .hbm, ⟨14, _⟩ => ⟨S128x256x256, .f32⟩
  | .hbm, ⟨15, _⟩ => ⟨S_, .f32⟩
  | .hbm, ⟨16, _⟩ => ⟨S128x256x256, .f32⟩
  | .hbm, ⟨17, _⟩ => ⟨S128x256x256, .f32⟩
  | .hbm, ⟨18, _⟩ => ⟨S_, .f32⟩
  | .hbm, ⟨19, _⟩ => ⟨S128x256x256, .f32⟩
  | .hbm, ⟨20, _⟩ => ⟨S128x256x256, .f32⟩
  | .hbm, ⟨21, _⟩ => ⟨S128x256x256, .f32⟩
  | .hbm, ⟨22, _⟩ => ⟨S128x256x256, .f32⟩
  | .hbm, ⟨23, _⟩ => ⟨S128x256x256, .f32⟩
  | .hbm, ⟨24, _⟩ => ⟨S_, .f32⟩
  | .hbm, ⟨25, _⟩ => ⟨S128x256x256, .f32⟩
  | .hbm, ⟨26, _⟩ => ⟨S128x256x256, .f32⟩
  | .hbm, ⟨27, _⟩ => ⟨S128x256x256, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S128x256x256x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  slices_S128x256x256x5_S128x256x256x1_0_0_0_0 : S128x256x256x5.Slices ![0, 0, 0, 0] S128x256x256x1
  shapeCasts_S128x256x256x1_S128x256x256 : S128x256x256x1.ShapeCasts S128x256x256
  bcast_S_S128x256x256 : S_.BroadcastsInDim S128x256x256 (![] : Fin 0 → Fin S128x256x256.rank)
  slices_S128x256x256x5_S128x256x256x4_0_0_0_1 : S128x256x256x5.Slices ![0, 0, 0, 1] S128x256x256x4
  reducesTo_S128x256x256x4_S128x256x256_d3 : S128x256x256x4.ReducesTo [3] S128x256x256
  h_S_ : 0 < S_.numel
  reducesTo_S128x256x256_S_d0_1_2 : S128x256x256.ReducesTo [0, 1, 2] S_

variable [Facts₀]

class Facts : Prop extends Facts₀ where

variable [Facts]
-- ==== Proof.KernelPieces.lean ====
/-
  What one run of the kernel body leaves behind, as values.

  The body keeps a running total in an [8, 128] scratch buffer, every entry the same number. At a grid point it
  (first of a row of 32 points only) fills the scratch with zeros, reads the two [4, 8, 256, 5] tiles, adds the
  tile's loss to every entry of the scratch, and copies the scratch into the [1, 8, 128] output tile. So, writing
  `upd x0 x1 s` for "s with the tile's loss added to every entry" (the body's arithmetic, `k0_pay4`):
    * at a first point the scratch ends at `upd x0 x1 0`, at any other at `upd x0 x1 s` over what it held, `s`;
    * the output tile ends at the scratch's new contents, reshaped.
  Each statement is read off the stores the body performs: every store here overwrites its whole buffer, so the last
  store's payload is the buffer's contents, and a load after a store reads that payload.
-/
import proofs.«136722_j10754598109418_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A load of the whole buffer after stores the LAST of which overwrote the whole buffer reads that store's payload. -/
theorem readCov_cons_unit_zero {Val : EltTy → Type} [∀ e, Nonempty (Val e)] {S : Shape} {e : EltTy} {sg : RefSig} {κ : Kind}
    {sp : Space} (v : View sg κ sp S e) {off off' : Fin S.rank → Nat} (h : off = fun _ => 0) (h' : off' = fun _ => 0)
    (inb : ∀ a, off a + S.size a ≤ S.size a) (inb' : ∀ a, off' a + S.size a ≤ S.size a) (w : S.Idx → Val e)
    (L : List (View.Piece Val S e)) :
    v.readCov ((⟨Rect.unit off S.size inb, w⟩ : View.Piece Val S e) :: L) (Rect.unit off' S.size inb').toLoadRect = w := by
  rw [View.readCov_eq_canon_ld _ _ _ (fun y => ⟨_, List.mem_cons_self, View.mem_set_unit_zero h inb y⟩),
    View.canon_cons_unit_zero h, View.ld_unit_zero h']

/-- Not a first point: the scratch, holding `xs`, ends with the tile's loss added. -/
theorem sout_B (c : Dev nD) (i : grid0.Coords) (a2 : Memref sig .tc .vmem S4x8x256x5 .f32) (h2 : a2.IsWhole)
    (a3 : Memref sig .tc .vmem S4x8x256x5 .f32) (h3 : a3.IsWhole) (a4 : Memref sig .tc .vmem S1x8x128 .f32) (h4 : a4.IsWhole)
    (a5 : Memref sig .tc .vmem S8x128 .f32) (h5 : a5.IsWhole) (hc : ¬cond0_0 i)
    (x0 x1 : Vec F S4x8x256x5 .f32) (xs : Vec F S8x128 .f32) :
    sout0_B_0 c i a2 h2 a3 h3 a4 h4 a5 h5 hc x0 x1 xs = k0_pay1 (k0_pay4 x0 x1 xs) := by
  unfold sout0_B_0
  rw [View.read_writes_eq_canon _ _ _ (scover0_B_0 c i a2 h2 a3 h3 a4 h4 a5 h5 hc x0 x1 xs)]
  unfold kernelRun0_B
  dsimp only
  sl_unfold_words
  rw [View.canon_unit_zero hz2]
  simp only [View.readAt_eq_ld, h2.read_unread, h3.read_unread, h5.read_unread,
    View.ld_unit_zero (S := S4x8x256x5) hz4, View.ld_unit_zero (S := S8x128) hz2]

/-- Not a first point: the output tile ends at the scratch's new contents. -/
theorem out_B (c : Dev nD) (i : grid0.Coords) (a2 : Memref sig .tc .vmem S4x8x256x5 .f32) (h2 : a2.IsWhole)
    (a3 : Memref sig .tc .vmem S4x8x256x5 .f32) (h3 : a3.IsWhole) (a4 : Memref sig .tc .vmem S1x8x128 .f32) (h4 : a4.IsWhole)
    (a5 : Memref sig .tc .vmem S8x128 .f32) (h5 : a5.IsWhole) (hc : ¬cond0_0 i)
    (x0 x1 : Vec F S4x8x256x5 .f32) (xs : Vec F S8x128 .f32) :
    out0_B_2 c i a2 h2 a3 h3 a4 h4 a5 h5 hc x0 x1 xs = k0_pay2 (k0_pay1 (k0_pay4 x0 x1 xs)) := by
  unfold out0_B_2
  rw [View.read_writes_eq_canon _ _ _ (cover0_B_2 c i a2 h2 a3 h3 a4 h4 a5 h5 hc x0 x1 xs)]
  unfold kernelRun0_B
  dsimp only
  sl_unfold_words
  rw [View.canon_unit_zero hz3, View.readCov_unit_zero (S := S8x128) _ hz2]
  simp only [View.readAt_eq_ld, h2.read_unread, h3.read_unread, h5.read_unread,
    View.ld_unit_zero (S := S4x8x256x5) hz4, View.ld_unit_zero (S := S8x128) hz2]

/-- A first point: the scratch is zeroed, then the tile's loss is added. -/
theorem sout_A (c : Dev nD) (i : grid0.Coords) (a2 : Memref sig .tc .vmem S4x8x256x5 .f32) (h2 : a2.IsWhole)
    (a3 : Memref sig .tc .vmem S4x8x256x5 .f32) (h3 : a3.IsWhole) (a4 : Memref sig .tc .vmem S1x8x128 .f32) (h4 : a4.IsWhole)
    (a5 : Memref sig .tc .vmem S8x128 .f32) (h5 : a5.IsWhole) (hc : cond0_0 i)
    (x0 x1 : Vec F S4x8x256x5 .f32) :
    sout0_A_0 c i a2 h2 a3 h3 a4 h4 a5 h5 hc x0 x1 = k0_pay1 (k0_pay4 x0 x1 (k0_pay3 (F := F))) := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S8x128) hz2, View.readCov_unit_zero (S := S8x128) _ hz2]
  simp only [View.readAt_eq_ld, h2.read_unread, h3.read_unread,
    View.ld_unit_zero (S := S4x8x256x5) hz4]

/-- A first point: the output tile ends at the scratch's new contents. -/
theorem out_A (c : Dev nD) (i : grid0.Coords) (a2 : Memref sig .tc .vmem S4x8x256x5 .f32) (h2 : a2.IsWhole)
    (a3 : Memref sig .tc .vmem S4x8x256x5 .f32) (h3 : a3.IsWhole) (a4 : Memref sig .tc .vmem S1x8x128 .f32) (h4 : a4.IsWhole)
    (a5 : Memref sig .tc .vmem S8x128 .f32) (h5 : a5.IsWhole) (hc : cond0_0 i)
    (x0 x1 : Vec F S4x8x256x5 .f32) :
    out0_A_2 c i a2 h2 a3 h3 a4 h4 a5 h5 hc x0 x1 = k0_pay2 (k0_pay1 (k0_pay4 x0 x1 (k0_pay3 (F := F)))) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz3, readCov_cons_unit_zero (S := S8x128) _ hz2 hz2,
    View.readCov_unit_zero (S := S8x128) _ hz2]
  simp only [View.readAt_eq_ld, h2.read_unread, h3.read_unread,
    View.ld_unit_zero (S := S4x8x256x5) hz4]

end Cert.KernelIdeal.Pieces

end
-- ==== Proof.CellLoss.lean ====
/-
  The mathematics both programs compute, stated once over the extended reals.

  Every cell (b, w, h) of the two [128, 256, 256, 5] arrays carries five numbers of the prediction `o` and five of
  the target `t`. Its loss is
      5 · Σₖ (o(k+1) − t(k+1))² + (o 0 − 1)²     where t 0 > 0,
      ½ · (o 0)²                                  elsewhere,
  and the result is the sum of the losses of all cells, divided by 128.

  One program adds the cells in one sum; the other adds them tile by tile — a [4, 8, 256] tile of cells for each
  pair (i, s) of 32 × 32 —, repeats each row total i at 8 · 128 places, adds all of those and divides by 1024. On the
  extended reals addition is commutative and associative at the infinities too, so regrouping a sum is free
  (`total_eq_blocks`), and 1024 copies of any extended real divided by 1024 give it back (`div_nsmul_1024`): no
  finiteness of the inputs is needed.
-/
import Idealize.ShloMosaic.Lib.ValueIdx
import Idealize.ShloMosaic.PureOps.Ideal.Laws

noncomputable section

namespace Cert.CellLoss

open Idealize.ShloMosaic Idealize.ShloMosaic.ValueIdx

/-- The two arrays' shape, and the shape of the cells. -/
abbrev SArr : Shape := ⟨4, ![128, 256, 256, 5]⟩
abbrev SCells : Shape := ⟨3, ![128, 256, 256]⟩

/-- One cell's loss from its five predicted and five target numbers. The four float literals are kept as their
    words (0, 5, 1, ½): both programs print the same words, so none is ever evaluated. -/
def cell (o t : Fin 5 → EReal) : EReal :=
  Scalar.select (Ideal.cmp .ogt (t 0) (Ideal.ofBits .f32 0x00000000#32))
    (Ideal.ofBits .f32 0x40A00000#32 * (∑ k : Fin 4, (o k.succ - t k.succ) * (o k.succ - t k.succ))
      + (o 0 - Ideal.ofBits .f32 0x3F800000#32) * (o 0 - Ideal.ofBits .f32 0x3F800000#32))
    (Ideal.ofBits .f32 0x3F000000#32 * (o 0 * o 0))

/-- The loss of cell (b, w, h) of the arrays `X` (predictions) and `Y` (targets). -/
def cellAt (X Y : SArr.Idx → EReal) (b : Fin 128) (w : Fin 256) (h : Fin 256) : EReal :=
  cell (fun ch => X (ix4 b w h ch)) (fun ch => Y (ix4 b w h ch))

/-- The sum of all cells' losses. -/
def total (X Y : SArr.Idx → EReal) : EReal := ∑ j : SCells.Idx, cellAt X Y (j 0) (j 1) (j 2)

/-- Row 4i + p of the 128, for i < 32 and p < 4; column 8s + q of the 256, for s < 32 and q < 8. -/
abbrev row (i : Fin 32) (p : Fin 4) : Fin 128 := ⟨4 * i.val + p.val, by have := i.isLt; have := p.isLt; omega⟩
abbrev col (s : Fin 32) (q : Fin 8) : Fin 256 := ⟨8 * s.val + q.val, by have := s.isLt; have := q.isLt; omega⟩

/-- The sum of the losses of the [4, 8, 256] tile of cells at tile position (i, s). -/
def blockSum (X Y : SArr.Idx → EReal) (i s : Fin 32) : EReal :=
  ∑ p : Fin 4, ∑ q : Fin 8, ∑ r : Fin 256, cellAt X Y (row i p) (col s q) r

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a·b consecutive numbers, split as a sums of b: the number b·i + p is the p-th of the i-th run. -/
theorem sum_fin_mul {M : Type*} [AddCommMonoid M] (a b : Nat) (f : Fin (a * b) → M) :
    ∑ x : Fin (a * b), f x = ∑ i : Fin a, ∑ p : Fin b, f (finProdFinEquiv (i, p)) := by
  rw [← finProdFinEquiv.sum_comp, Fintype.sum_prod_type]

/-- Regrouping: the sum over all cells is the sum over the 32 × 32 tiles of each tile's sum. -/
theorem total_eq_blocks (X Y : SArr.Idx → EReal) : total X Y = ∑ i : Fin 32, ∑ s : Fin 32, blockSum X Y i s := by
  unfold total blockSum
  rw [sum_idx3 (n0 := 128) (n1 := 256) (n2 := 256) (fun j => cellAt X Y (j 0) (j 1) (j 2))]
  rw [sum_fin_mul 32 4 (fun b : Fin 128 => ∑ w : Fin 256, ∑ h : Fin 256, cellAt X Y b w h)]
  refine Finset.sum_congr rfl fun i _ => ?_
  -- inside row run i: Σ_p Σ_w … = Σ_s Σ_p Σ_q …
  have hw : ∀ p : Fin 4, (∑ w : Fin 256, ∑ h : Fin 256, cellAt X Y (finProdFinEquiv (i, p)) w h)
      = ∑ s : Fin 32, ∑ q : Fin 8, ∑ h : Fin 256, cellAt X Y (row i p) (col s q) h := by
    intro p
    rw [sum_fin_mul 32 8 (fun w : Fin 256 => ∑ h : Fin 256, cellAt X Y (finProdFinEquiv (i, p)) w h)]
    refine Finset.sum_congr rfl fun s _ => Finset.sum_congr rfl fun q _ => Finset.sum_congr rfl fun h _ => ?_
    have e1 : (finProdFinEquiv (i, p) : Fin (32 * 4)) = row i p := Fin.ext (by simp [finProdFinEquiv]; omega)
    have e2 : (finProdFinEquiv (s, q) : Fin (32 * 8)) = col s q := Fin.ext (by simp [finProdFinEquiv]; omega)
    rw [e1, e2]
  rw [Finset.sum_congr rfl fun p _ => hw p, Finset.sum_comm]

/-- The word 0x44800000 is the real 1024. -/
theorem ofBits_1024 : Ideal.ofBits .f32 0x44800000#32 = ((1024 : ℝ) : EReal) := by
  simp [Ideal.ofBits, Ideal.ieee, -EReal.coe_mul]; norm_num

/-- 1024 copies of an extended real, divided by 1024, are that extended real — at the infinities too. -/
theorem div_nsmul_1024 (T : EReal) : Ideal.div ((1024 : ℕ) • T) (Ideal.ofBits .f32 0x44800000#32) = T := by
  rw [ofBits_1024, Ideal.div_coe (by norm_num : (1024 : ℝ) ≠ 0), EReal.nsmul_eq_mul, mul_comm ((1024 : ℕ) : EReal) T,
    mul_assoc]
  have : (((1024 : ℕ) : EReal)) * (((1 / 1024 : ℝ)) : EReal) = 1 := by
    rw [show ((1024 : ℕ) : EReal) = ((1024 : ℝ) : EReal) by norm_cast, ← EReal.coe_mul]; norm_num
  rw [this, mul_one]

end Cert.CellLoss

end
-- ==== Proof.KernelTile.lean ====
/-
  The kernel body's arithmetic, read at an entry, over the extended reals.

  Given the two [4, 8, 256, 5] tiles `x0` (predictions) and `x1` (targets) and the scratch's contents `xs`, the
  body computes, for each of the tile's 4 · 8 · 256 cells, the cell's loss from its five numbers of each tile, sums
  the losses over the 256, then over the 8, then over the 4, and adds the number it gets to every entry of `xs`.
  So entry j of the result is `xs j + tileLoss x0 x1`, the same number added everywhere (`pay4_apply`).
  The other three payloads only re-lay values: a cast of [8,128] to itself, a cast to [1,8,128], a zero fill.
-/
import proofs.«136722_j10754598109418_1_alg».proof.Proof.Gen.KernelIdeal.Skeleton
import proofs.«136722_j10754598109418_1_alg».proof.Proof.CellLoss
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.Tile

open Cert.KernelIdeal Cert.KernelIdeal.Gen Cert.CellLoss

/-- The sum of the losses of a tile's cells. -/
def tileLoss (x0 x1 : Vec Ideal S4x8x256x5 .f32) : EReal :=
  ∑ p : Fin 4, ∑ q : Fin 8, ∑ r : Fin 256, cell (fun ch => x0 (ix4 p q r ch)) (fun ch => x1 (ix4 p q r ch))

/-! ## Re-laid values read at an index -/

section Layout
variable {α : Type}

/-- The one entry of a [1] vector, cast to [1, 1] and extracted. -/
theorem extract_cast_1x1 (v : S1.Idx → α) (h : S1.ShapeCasts S1x1) (hp : ∀ a, (![0, 0] : Fin 2 → Nat) a < S1x1.size a) :
    extractAt ![0, 0] (shapeCast S1x1 v h) hp = v (ix1 0) := by
  unfold extractAt
  exact shapeCast_apply v h _ (ix1 0) (by rw [Shape.rowMajor_val_one, Shape.rowMajor_val_two]; rfl)

/-- A [4] vector cast to [1, 4]: entry (0, k) is entry k. -/
theorem cast_1x4 (v : S4.Idx → α) (h : S4.ShapeCasts S1x4) (k : Fin 4) :
    shapeCast S1x4 v h (ix2 0 k) = v (ix1 k) :=
  shapeCast_apply v h _ (ix1 k) (by rw [Shape.rowMajor_val_one, Shape.rowMajor_val_two]; show k.val = 0 * 4 + k.val; omega)

/-- Dropping a trailing unit axis: entry (p, q, r) is entry (p, q, r, 0). -/
theorem cast_drop_last (v : S4x8x256x1.Idx → α) (h : S4x8x256x1.ShapeCasts S4x8x256) (p : Fin 4) (q : Fin 8) (r : Fin 256) :
    shapeCast S4x8x256 v h (ix3 p q r) = v (ix4 p q r 0) :=
  shapeCast_apply v h _ _ (by
    rw [Shape.rowMajor_val_four, Shape.rowMajor_val_three]
    show ((p.val * 8 + q.val) * 256 + r.val) * 1 + 0 = (p.val * 8 + q.val) * 256 + r.val
    omega)

/-- The slice of channel 0. -/
theorem slice_first (x : S4x8x256x5.Idx → α) (h : S4x8x256x5.Slices ![0, 0, 0, 0] S4x8x256x1) (p : Fin 4) (q : Fin 8) (r : Fin 256) :
    extractStridedSlice S4x8x256x1 ![0, 0, 0, 0] x h (ix4 p q r 0) = x (ix4 p q r 0) :=
  extractStridedSlice_apply _ x h _ _ (fun a => match a with
    | ⟨0, _⟩ => by show p.val = 0 + p.val; omega
    | ⟨1, _⟩ => by show q.val = 0 + q.val; omega
    | ⟨2, _⟩ => by show r.val = 0 + r.val; omega
    | ⟨3, _⟩ => by show (0 : Nat) = 0 + 0; omega)

/-- The slice of channels 1 to 4: its channel k is channel k + 1. -/
theorem slice_rest (x : S4x8x256x5.Idx → α) (h : S4x8x256x5.Slices ![0, 0, 0, 1] S4x8x256x4) (p : Fin 4) (q : Fin 8) (r : Fin 256)
    (k : Fin 4) : extractStridedSlice S4x8x256x4 ![0, 0, 0, 1] x h (ix4 p q r k) = x (ix4 p q r k.succ) :=
  extractStridedSlice_apply _ x h _ _ (fun a => match a with
    | ⟨0, _⟩ => by show p.val = 0 + p.val; omega
    | ⟨1, _⟩ => by show q.val = 0 + q.val; omega
    | ⟨2, _⟩ => by show r.val = 0 + r.val; omega
    | ⟨3, _⟩ => by show k.val + 1 = 1 + k.val; omega)

end Layout

/-! ## The four lane sums, each over one axis -/

theorem sum_chan (v : FVec Ideal S4x8x256x4 .f32) (h : S4x8x256x4.Reduces [3] S4x8x256) (hφ : FKind.Formats .f32)
    (hacc : (0x00000000#32 : BitVec 32) = FKind.add.neutral .f32 hφ) (p : Fin 4) (q : Fin 8) (r : Fin 256) :
    multiReduction .add [3] S4x8x256 v 0x00000000#32 h hφ hacc (ix3 p q r) = ∑ k : Fin 4, v (ix4 p q r k) :=
  (Ideal.multiReduction_add_single v _ h hφ hacc _).trans (Finset.sum_congr rfl fun k _ => congrArg v
    (funext fun a => Fin.ext (by match a with | ⟨0, _⟩ => rfl | ⟨1, _⟩ => rfl | ⟨2, _⟩ => rfl | ⟨3, _⟩ => rfl)))

theorem sum_r (v : FVec Ideal S4x8x256 .f32) (h : S4x8x256.Reduces [2] S4x8) (hφ : FKind.Formats .f32)
    (hacc : (0x00000000#32 : BitVec 32) = FKind.add.neutral .f32 hφ) (p : Fin 4) (q : Fin 8) :
    multiReduction .add [2] S4x8 v 0x00000000#32 h hφ hacc (ix2 p q) = ∑ r : Fin 256, v (ix3 p q r) :=
  (Ideal.multiReduction_add_single v _ h hφ hacc _).trans (Finset.sum_congr rfl fun k _ => congrArg v
    (funext fun a => Fin.ext (by match a with | ⟨0, _⟩ => rfl | ⟨1, _⟩ => rfl | ⟨2, _⟩ => rfl)))

theorem sum_q (v : FVec Ideal S4x8 .f32) (h : S4x8.Reduces [1] S4) (hφ : FKind.Formats .f32)
    (hacc : (0x00000000#32 : BitVec 32) = FKind.add.neutral .f32 hφ) (p : Fin 4) :
    multiReduction .add [1] S4 v 0x00000000#32 h hφ hacc (ix1 p) = ∑ q : Fin 8, v (ix2 p q) :=
  (Ideal.multiReduction_add_single v _ h hφ hacc _).trans (Finset.sum_congr rfl fun k _ => congrArg v
    (funext fun a => Fin.ext (by match a with | ⟨0, _⟩ => rfl | ⟨1, _⟩ => rfl)))

theorem sum_p (v : FVec Ideal S1x4 .f32) (h : S1x4.Reduces [1] S1) (hφ : FKind.Formats .f32)
    (hacc : (0x00000000#32 : BitVec 32) = FKind.add.neutral .f32 hφ) :
    multiReduction .add [1] S1 v 0x00000000#32 h hφ hacc (ix1 0) = ∑ p : Fin 4, v (ix2 0 p) :=
  (Ideal.multiReduction_add_single v _ h hφ hacc _).trans (Finset.sum_congr rfl fun k _ => congrArg v
    (funext fun a => Fin.ext (by match a with | ⟨0, _⟩ => rfl | ⟨1, _⟩ => rfl)))

/-! ## The body's select at a cell is the cell's loss -/

theorem body_cell (x0 x1 : Vec Ideal S4x8x256x5 .f32) (p : Fin 4) (q : Fin 8) (r : Fin 256)
    (hs0 : S4x8x256x5.Slices ![0, 0, 0, 0] S4x8x256x1) (hc : S4x8x256x1.ShapeCasts S4x8x256)
    (hs1 : S4x8x256x5.Slices ![0, 0, 0, 1] S4x8x256x4) (hr : S4x8x256x4.Reduces [3] S4x8x256) (hφ : FKind.Formats .f32)
    (hacc : (0x00000000#32 : BitVec 32) = FKind.add.neutral .f32 hφ) :
    select (cmpf .ogt (shapeCast S4x8x256 (extractStridedSlice S4x8x256x1 ![0, 0, 0, 0] x1 hs0) hc)
        (broadcast S4x8x256 (Scalar.ofBits (F := Ideal) .f32 0x00000000#32)))
      (addf (mulf (broadcast S4x8x256 (Scalar.ofBits (F := Ideal) .f32 0x40A00000#32))
          (multiReduction .add [3] S4x8x256
            (mulf (subf (extractStridedSlice S4x8x256x4 ![0, 0, 0, 1] x0 hs1) (extractStridedSlice S4x8x256x4 ![0, 0, 0, 1] x1 hs1))
              (subf (extractStridedSlice S4x8x256x4 ![0, 0, 0, 1] x0 hs1) (extractStridedSlice S4x8x256x4 ![0, 0, 0, 1] x1 hs1)))
            0x00000000#32 hr hφ hacc))
        (mulf (subf (shapeCast S4x8x256 (extractStridedSlice S4x8x256x1 ![0, 0, 0, 0] x0 hs0) hc)
            (broadcast S4x8x256 (Scalar.ofBits (F := Ideal) .f32 0x3F800000#32)))
          (subf (shapeCast S4x8x256 (extractStridedSlice S4x8x256x1 ![0, 0, 0, 0] x0 hs0) hc)
            (broadcast S4x8x256 (Scalar.ofBits (F := Ideal) .f32 0x3F800000#32)))))
      (mulf (broadcast S4x8x256 (Scalar.ofBits (F := Ideal) .f32 0x3F000000#32))
        (mulf (shapeCast S4x8x256 (extractStridedSlice S4x8x256x1 ![0, 0, 0, 0] x0 hs0) hc)
          (shapeCast S4x8x256 (extractStridedSlice S4x8x256x1 ![0, 0, 0, 0] x0 hs0) hc)))
      (ix3 p q r)
    = cell (fun ch => x0 (ix4 p q r ch)) (fun ch => x1 (ix4 p q r ch)) := by
  rw [select_apply, cmpf_apply, addf_apply, mulf_apply, mulf_apply, mulf_apply, mulf_apply, subf_apply, broadcast_apply,
    broadcast_apply, broadcast_apply, broadcast_apply, cast_drop_last, cast_drop_last, slice_first, slice_first, sum_chan]
  unfold cell
  simp only [mulf_apply, subf_apply, slice_rest]
  rfl

/-! ## The four payloads -/

/-- The update: the tile's loss added to every entry of the scratch's contents. -/
theorem pay4_apply (x0 x1 : Vec Ideal S4x8x256x5 .f32) (xs : Vec Ideal S8x128 .f32) (j : S8x128.Idx) :
    k0_pay4 (F := Ideal) x0 x1 xs j = xs j + tileLoss x0 x1 := by
  unfold k0_pay4
  dsimp only
  refine congrArg (xs j + ·) ?_
  refine (extract_cast_1x1 _ _ _).trans ?_
  refine (sum_p _ _ _ _).trans ?_
  unfold tileLoss
  refine Finset.sum_congr rfl fun p _ => ?_
  refine (cast_1x4 _ _ p).trans ?_
  refine (sum_q _ _ _ _ p).trans ?_
  refine Finset.sum_congr rfl fun q _ => ?_
  refine (sum_r _ _ _ _ p q).trans ?_
  refine Finset.sum_congr rfl fun r _ => ?_
  exact body_cell x0 x1 p q r _ _ _ _ _ _

/-- The cast of [8, 128] to itself changes nothing. -/
theorem pay1_eq {F : FTy → Type} [FloatOps F] (v : FVec F S8x128 .f32) : k0_pay1 v = v := by
  unfold k0_pay1; exact shapeCast_self v _

/-- The zero fill is zero at every entry. -/
theorem pay3_apply (j : S8x128.Idx) : k0_pay3 (F := Ideal) j = 0 := by
  unfold k0_pay3
  rw [shapeCast_self]
  exact Ideal.ofBits_zero_f32

/-- The cast of [8, 128] to [1, 8, 128]: entry (0, a, b) is entry (a, b). -/
theorem pay2_apply {F : FTy → Type} [FloatOps F] (v : Vec F S8x128 .f32) (z : Fin 1) (a : Fin 8) (b : Fin 128) :
    k0_pay2 v (ix3 z a b) = v (ix2 a b) := by
  unfold k0_pay2
  exact shapeCast_apply v _ _ (ix2 a b) (by
    rw [Shape.rowMajor_val_two, Shape.rowMajor_val_three]
    show a.val * 128 + b.val = (z.val * 8 + a.val) * 128 + b.val
    have := z.isLt; omega)

end Cert.KernelIdeal.Tile

end
-- ==== Proof.KernelFold.lean ====
/-
  The running total across the grid.

  The 1024 grid points come in 32 rows of 32 consecutive points. At the first point of a row the scratch is set to
  0 plus that point's tile loss; at every other point the point's tile loss is added to what the point before left.
  So after point t, every entry of the scratch is
      0 + Σ_{s ≤ t mod 32} (tile loss of point 32·(t div 32) + s),
  the losses of the row's points up to t (`scr_fold`): a fold over a run of consecutive points, proved by induction
  along the run, never by listing the points. The output tile after a point is the scratch after it, re-laid
  (`out_eq`).
-/
import proofs.«136722_j10754598109418_1_alg».proof.Proof.KernelPieces
import proofs.«136722_j10754598109418_1_alg».proof.Proof.KernelTile

noncomputable section

open Idealize.ShloMosaic Idealize.ShloMosaic.TcCoe Idealize.ShloMosaic.ValueIdx Idealize.SL.Sem
open Idealize.ShloMosaic.Pipeline (Dat)

namespace Cert.KernelIdeal.Fold

open Cert.KernelIdeal Cert.KernelIdeal.Gen Cert.KernelIdeal.Pieces Cert.KernelIdeal.Tile Cert.CellLoss

variable (m : (ℓ : Loc nD τ sig) → Buf (Elt Ideal) ℓ)

/-- The two tiles the body reads at a point: the windows' blocks of the two argument arrays. -/
abbrev xblk (c : Dev nD) (t : Fin cfg0.N) : Vec Ideal S4x8x256x5 .f32 := iblk m c 0 t
abbrev yblk (c : Dev nD) (t : Fin cfg0.N) : Vec Ideal S4x8x256x5 .f32 := iblk m c 1 t

/-- The loss of the tile that point `n` reads (past the grid, where it is never used, zero). -/
def ptLoss (c : Dev nD) (n : ℕ) : EReal :=
  if h : n < cfg0.N then tileLoss (xblk m c ⟨n, h⟩) (yblk m c ⟨n, h⟩) else 0

/-- The scratch after point `n`. -/
abbrev scr (c : Dev nD) (n : ℕ) (h : n < cfg0.N) : S8x128.Idx → EReal := (outsAt0 m c n h).2

/-- What a row's first point leaves in the scratch, and what any other point makes of the scratch's contents. -/
def resetTo (c : Dev nD) (n : ℕ) (h : n < cfg0.N) : S8x128.Idx → EReal :=
  k0_pay1 (k0_pay4 (xblk m c ⟨n, h⟩) (yblk m c ⟨n, h⟩) (k0_pay3 (F := Ideal)))
def stepFrom (c : Dev nD) (n : ℕ) (h : n < cfg0.N) (acc : S8x128.Idx → EReal) : S8x128.Idx → EReal :=
  k0_pay1 (k0_pay4 (xblk m c ⟨n, h⟩) (yblk m c ⟨n, h⟩) acc)

theorem scr_reset (c : Dev nD) (n : ℕ) (h : n < cfg0.N) (h0 : n % 32 = 0) : scr m c n h = resetTo m c n h := by
  show (outsAt0 m c n h).2 = _
  rw [outsAt0_A m c ⟨n, h⟩ h0]
  dsimp only
  unfold resetTo
  exact sout_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) scM0_0 (Memref.isWhole_whole _) ((hcond0_0 ⟨n, h⟩).mpr h0) (xblk m c ⟨n, h⟩) (yblk m c ⟨n, h⟩)

theorem scr_step (c : Dev nD) (n : ℕ) (h : n + 1 < cfg0.N) (hB : ¬(n + 1) % 32 = 0) :
    scr m c (n + 1) h = stepFrom m c (n + 1) h (scr m c n (Nat.lt_of_succ_lt h)) := by
  show (outsAt0 m c (n + 1) h).2 = _
  rw [outsAt0_B m c ⟨n + 1, h⟩ hB]
  dsimp only
  unfold stepFrom
  exact sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => hB ((hcond0_0 ⟨n + 1, h⟩).mp hh)) (xblk m c ⟨n + 1, h⟩) (yblk m c ⟨n + 1, h⟩)
    (outsAt0 m c n (Nat.lt_of_succ_lt h)).2

theorem resetTo_apply (c : Dev nD) (n : ℕ) (h : n < cfg0.N) (j : S8x128.Idx) :
    resetTo m c n h j = 0 + ptLoss m c n := by
  unfold resetTo ptLoss
  rw [pay1_eq, pay4_apply, pay3_apply, dif_pos h]

theorem stepFrom_apply (c : Dev nD) (n : ℕ) (h : n < cfg0.N) (acc : S8x128.Idx → EReal) (j : S8x128.Idx) :
    stepFrom m c n h acc j = acc j + ptLoss m c n := by
  unfold stepFrom ptLoss
  rw [pay1_eq, pay4_apply, dif_pos h]

/-- After point `t`, every entry of the scratch is the sum of the row's tile losses up to `t`. -/
theorem scr_fold (c : Dev nD) (t : ℕ) (ht : t < cfg0.N) (j : S8x128.Idx) :
    scr m c t ht j = 0 + ∑ s ∈ Finset.range (t % 32 + 1), ptLoss m c (32 * (t / 32) + s) := by
  have h' : 32 * (t / 32) + t % 32 < cfg0.N := by rw [Nat.div_add_mod]; exact ht
  refine (congrFun (Pipeline.eq_accAt_of_mod (fun n h => scr m c n h) 32 (resetTo m c) (stepFrom m c)
    (fun n h h0 => scr_reset m c n h h0) (fun n h hB => scr_step m c n h hB) (by decide) t ht h') j).trans ?_
  exact Pipeline.accAt_add_apply (resetTo m c) (stepFrom m c) (fun _ => (0 : EReal)) (fun n _ => ptLoss m c n)
    (32 * (t / 32)) (t % 32) (fun h i => resetTo_apply m c _ h i) (fun n h acc i _ _ => stepFrom_apply m c n h acc i)
    (t % 32) le_rfl h' j

/-- The output tile after a point is the scratch after it, cast to [1, 8, 128]. -/
theorem out_eq (c : Dev nD) (t : Fin cfg0.N) :
    (outsAt0 m c t.val t.isLt).1 = k0_pay2 (outsAt0 m c t.val t.isLt).2 := by
  by_cases h0 : t.val % 32 = 0
  · rw [outsAt0_A m c t h0]
    dsimp only
    exact (out_A (F := Ideal) c (grid0.coords t) (ms0_0 t) (hs0_0 t) (ms0_1 t) (hs0_1 t) (ms0_2 t) (hs0_2 t) scM0_0 (Memref.isWhole_whole _) ((hcond0_0 t).mpr h0) (xblk m c t) (yblk m c t)).trans
      (congrArg k0_pay2 (sout_A (F := Ideal) c (grid0.coords t) (ms0_0 t) (hs0_0 t) (ms0_1 t) (hs0_1 t) (ms0_2 t) (hs0_2 t) scM0_0 (Memref.isWhole_whole _) ((hcond0_0 t).mpr h0) (xblk m c t) (yblk m c t)).symm)
  · rw [outsAt0_B m c t h0]
    dsimp only
    exact (out_B (F := Ideal) c (grid0.coords t) (ms0_0 t) (hs0_0 t) (ms0_1 t) (hs0_1 t) (ms0_2 t) (hs0_2 t) scM0_0 (Memref.isWhole_whole _) (fun hh => h0 ((hcond0_0 t).mp hh)) (xblk m c t) (yblk m c t)
        (outsAt0 m c (t.val - 1) (Nat.lt_of_le_of_lt (Nat.sub_le _ _) t.isLt)).2).trans
      (congrArg k0_pay2 (sout_B (F := Ideal) c (grid0.coords t) (ms0_0 t) (hs0_0 t) (ms0_1 t) (hs0_1 t) (ms0_2 t) (hs0_2 t) scM0_0 (Memref.isWhole_whole _) (fun hh => h0 ((hcond0_0 t).mp hh)) (xblk m c t) (yblk m c t)
        (outsAt0 m c (t.val - 1) (Nat.lt_of_le_of_lt (Nat.sub_le _ _) t.isLt)).2).symm)

end Cert.KernelIdeal.Fold

end
-- ==== Proof.KernelBlocks.lean ====
/-
  Which cells a grid point reads.

  Point t of the 1024 sits at row t div 32 and position t mod 32 of its row. Both input windows cut their
  [128, 256, 256, 5] array into [4, 8, 256, 5] tiles and hand point t the tile with block index
  (t div 32, t mod 32, 0, 0): entry (p, q, r, ch) of the tile is entry (4·(t div 32) + p, 8·(t mod 32) + q, r, ch)
  of the array. So the loss of the tile point 32·i + s reads is the sum of the losses of the tile of cells at
  position (i, s): `ptLoss_eq`.
-/
import proofs.«136722_j10754598109418_1_alg».proof.Proof.KernelFold

noncomputable section

open Idealize.ShloMosaic Idealize.ShloMosaic.TcCoe Idealize.ShloMosaic.ValueIdx Idealize.SL.Sem
open Idealize.ShloMosaic.Pipeline (Dat)

namespace Cert.KernelIdeal.Blocks

open Cert.KernelIdeal Cert.KernelIdeal.Gen Cert.KernelIdeal.Tile Cert.KernelIdeal.Fold Cert.CellLoss

variable (m : (ℓ : Loc nD τ sig) → Buf (Elt Ideal) ℓ)

/-- The printed index maps of the two input windows, decided over the grid. -/
theorem idx_in : ∀ t : Fin cfg0.N,
    win0_0.index t (0 : Fin 4) = t.val / 32 ∧ win0_0.index t (1 : Fin 4) = t.val % 32
    ∧ win0_0.index t (2 : Fin 4) = 0 ∧ win0_0.index t (3 : Fin 4) = 0
    ∧ win0_1.index t (0 : Fin 4) = t.val / 32 ∧ win0_1.index t (1 : Fin 4) = t.val % 32
    ∧ win0_1.index t (2 : Fin 4) = 0 ∧ win0_1.index t (3 : Fin 4) = 0 :=
  (by decide +kernel : ∀ t : Fin grid0.N, _)

/-- The two argument arrays. -/
abbrev X (c : Dev nD) : SArr.Idx → EReal := m ((c.tc : Thread nD τ).loc main_arg0)
abbrev Y (c : Dev nD) : SArr.Idx → EReal := m ((c.tc : Thread nD τ).loc main_arg1)

/-- Entry (p, q, r, ch) of the prediction tile at point 32·i + s. -/
theorem xblk_apply (c : Dev nD) (i s : Fin 32) (h : 32 * i.val + s.val < cfg0.N) (p : Fin 4) (q : Fin 8) (r : Fin 256)
    (ch : Fin 5) : xblk m c ⟨32 * i.val + s.val, h⟩ (ix4 p q r ch) = X m c (ix4 (row i p) (col s q) r ch) := by
  obtain ⟨e0, e1, e2, e3, -, -, -, -⟩ := idx_in ⟨32 * i.val + s.val, h⟩
  have hi := i.isLt; have hs := s.isLt
  unfold xblk iblk
  rw [View.read_apply]
  show V m c main_arg0 _ = m (c.tc.loc main_arg0) _
  unfold V
  congr 1
  funext a
  apply Fin.ext
  match a with
  | ⟨0, _⟩ => show win0_0.index ⟨32 * i.val + s.val, h⟩ (0 : Fin 4) * 4 + 1 * p.val = 4 * i.val + p.val; rw [e0]; dsimp only; omega
  | ⟨1, _⟩ => show win0_0.index ⟨32 * i.val + s.val, h⟩ (1 : Fin 4) * 8 + 1 * q.val = 8 * s.val + q.val; rw [e1]; dsimp only; omega
  | ⟨2, _⟩ => show win0_0.index ⟨32 * i.val + s.val, h⟩ (2 : Fin 4) * 256 + 1 * r.val = r.val; rw [e2]; omega
  | ⟨3, _⟩ => show win0_0.index ⟨32 * i.val + s.val, h⟩ (3 : Fin 4) * 5 + 1 * ch.val = ch.val; rw [e3]; omega

/-- Entry (p, q, r, ch) of the target tile at point 32·i + s. -/
theorem yblk_apply (c : Dev nD) (i s : Fin 32) (h : 32 * i.val + s.val < cfg0.N) (p : Fin 4) (q : Fin 8) (r : Fin 256)
    (ch : Fin 5) : yblk m c ⟨32 * i.val + s.val, h⟩ (ix4 p q r ch) = Y m c (ix4 (row i p) (col s q) r ch) := by
  obtain ⟨-, -, -, -, e0, e1, e2, e3⟩ := idx_in ⟨32 * i.val + s.val, h⟩
  have hi := i.isLt; have hs := s.isLt
  unfold yblk iblk
  rw [View.read_apply]
  show V m c main_arg1 _ = m (c.tc.loc main_arg1) _
  unfold V
  congr 1
  funext a
  apply Fin.ext
  match a with
  | ⟨0, _⟩ => show win0_1.index ⟨32 * i.val + s.val, h⟩ (0 : Fin 4) * 4 + 1 * p.val = 4 * i.val + p.val; rw [e0]; dsimp only; omega
  | ⟨1, _⟩ => show win0_1.index ⟨32 * i.val + s.val, h⟩ (1 : Fin 4) * 8 + 1 * q.val = 8 * s.val + q.val; rw [e1]; dsimp only; omega
  | ⟨2, _⟩ => show win0_1.index ⟨32 * i.val + s.val, h⟩ (2 : Fin 4) * 256 + 1 * r.val = r.val; rw [e2]; omega
  | ⟨3, _⟩ => show win0_1.index ⟨32 * i.val + s.val, h⟩ (3 : Fin 4) * 5 + 1 * ch.val = ch.val; rw [e3]; omega

/-- The loss of the tile point 32·i + s reads is the tile-of-cells sum at position (i, s). -/
theorem ptLoss_eq (c : Dev nD) (i s : Fin 32) : ptLoss m c (32 * i.val + s.val) = blockSum (X m c) (Y m c) i s := by
  have hN : cfg0.N = 1024 := N_0
  have h : 32 * i.val + s.val < cfg0.N := by rw [hN]; have := i.isLt; have := s.isLt; omega
  unfold ptLoss
  rw [dif_pos h]
  unfold tileLoss blockSum cellAt
  refine Finset.sum_congr rfl fun p _ => Finset.sum_congr rfl fun q _ => Finset.sum_congr rfl fun r _ => ?_
  congr 1
  · funext ch; exact xblk_apply m c i s h p q r ch
  · funext ch; exact yblk_apply m c i s h p q r ch

end Cert.KernelIdeal.Blocks

end
-- ==== Proof.KernelResult.lean ====
/-
  The kernel program's result: the sum of every cell's loss, divided by 128.

  The output array [32, 8, 128] is written back one [1, 8, 128] tile per row of points, after the row's last point
  (the points t with t mod 32 = 31), when the scratch holds the whole row's total. So every entry (i, a, b) of it
  ends at `rowTotal i`, 0 plus the sum of row i's 32 tile losses (`final`). The lines after the kernel add all
  32 · 8 · 128 entries starting from 0, divide by 1024 and divide by 128. Each row total occurs 8 · 128 = 1024
  times, so the sum is 1024 copies of the sum of the row totals; that is 1024 copies of the sum over all tiles of
  the tile sums, which is the sum over all cells. Divided by 1024 it is that sum, whatever extended real it is.
-/
import proofs.«136722_j10754598109418_1_alg».proof.Proof.KernelBlocks
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Result

open Cert.KernelIdeal Cert.KernelIdeal.Gen Cert.KernelIdeal.Tile Cert.KernelIdeal.Fold Cert.KernelIdeal.Blocks Cert.CellLoss

variable (m : (ℓ : Loc nD τ sig) → Buf (Elt Ideal) ℓ) (ρ : Dev nD → PrngReg)

/-! ## The output array -/

/-- Row i's total: 0 plus the losses of the 32 tiles its points read. -/
def rowTotal (c : Dev nD) (i : ℕ) : EReal := 0 + ∑ s ∈ Finset.range 32, ptLoss m c (32 * i + s)

/-- The array of partial sums: every entry (i, a, b) is row i's total. -/
def partials (c : Dev nD) : S32x8x128.Idx → EReal := fun idx => rowTotal m c (idx 0).val

/-- The output window's printed index map, decided over the grid. -/
theorem idx_out : ∀ t : Fin cfg0.N,
    win0_2.index t (0 : Fin 3) = t.val / 32 ∧ win0_2.index t (1 : Fin 3) = 0 ∧ win0_2.index t (2 : Fin 3) = 0 :=
  (by decide +kernel : ∀ t : Fin grid0.N, _)

/-- Every entry of the output tile after point t is the sum of the row's tile losses up to t. -/
theorem out_fold (c : Dev nD) (t : Fin cfg0.N) (y : S1x8x128.Idx) :
    k0_pay2 (outsAt0 m c t.val t.isLt).2 y
      = 0 + ∑ s ∈ Finset.range (t.val % 32 + 1), ptLoss m c (32 * (t.val / 32) + s) := by
  rw [eq_ix3 y]
  exact (pay2_apply _ _ _ _).trans (scr_fold m c t.val t.isLt _)

/-- What a row's last point writes back is its tile of the array of partial sums. -/
theorem flushed_eq (c : Dev nD) (t : Fin cfg0.N) (hf : (cfg0.win 2).flush t = true) :
    (dats m 0 c).flushed 2 t = ((cfg0.win 2).blk t).view.read (Elt Ideal) (partials m c) := by
  have h31 : t.val % 32 = 31 := (flush0_2 t).mp hf
  obtain ⟨e0, e1, e2⟩ := idx_out t
  show (cfg0.win 2).cut (grid0.coords t) ((dats m 0 c).after 2 t) = _
  rw [after0_2, out_eq]
  funext j
  show k0_pay2 (outsAt0 m c t.val t.isLt).2 j = partials m c (((cfg0.win 2).blk t).view.emb j)
  refine (out_fold m c t j).trans ?_
  unfold partials rowTotal
  have hemb : ((((cfg0.win 2).blk t).view.emb j) 0).val = t.val / 32 := by
    show win0_2.index t (0 : Fin 3) * 1 + 1 * (j 0).val = t.val / 32
    have hj : (j 0).val < 1 := (j 0).isLt
    omega
  rw [hemb, h31]

/-- An index of the array is in point t's tile iff each coordinate is in the tile's range on its axis. -/
theorem mem_blk (t : Fin cfg0.N) (i : S32x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- Every entry (i, a, b) is in the tile written back after row i's last point, 32·i + 31. -/
theorem cover (i : S32x8x128.Idx) : ∃ t : Fin cfg0.N, (cfg0.win 2).flush t = true ∧ i ∈ ((cfg0.win 2).blk t).view.set := by
  have hi0 : (i 0).val < 32 := (i 0).isLt
  have hi1 : (i 1).val < 8 := (i 1).isLt
  have hi2 : (i 2).val < 128 := (i 2).isLt
  have hN : cfg0.N = 1024 := N_0
  have ht : 32 * (i 0).val + 31 < cfg0.N := by rw [hN]; omega
  obtain ⟨e0, e1, e2⟩ := idx_out ⟨32 * (i 0).val + 31, ht⟩
  refine ⟨⟨32 * (i 0).val + 31, ht⟩, (flush0_2 _).mpr (by show (32 * (i 0).val + 31) % 32 = 31; omega), ?_⟩
  rw [mem_blk]
  intro a
  match a with
  | ⟨0, _⟩ =>
    show win0_2.index ⟨32 * (i 0).val + 31, ht⟩ (0 : Fin 3) * 1 ≤ (i 0).val ∧ (i 0).val < win0_2.index ⟨32 * (i 0).val + 31, ht⟩ (0 : Fin 3) * 1 + 1
    rw [e0]; dsimp only; omega
  | ⟨1, _⟩ =>
    show win0_2.index ⟨32 * (i 0).val + 31, ht⟩ (1 : Fin 3) * 8 ≤ (i 1).val ∧ (i 1).val < win0_2.index ⟨32 * (i 0).val + 31, ht⟩ (1 : Fin 3) * 8 + 8
    rw [e1]; omega
  | ⟨2, _⟩ =>
    show win0_2.index ⟨32 * (i 0).val + 31, ht⟩ (2 : Fin 3) * 128 ≤ (i 2).val ∧ (i 2).val < win0_2.index ⟨32 * (i 0).val + 31, ht⟩ (2 : Fin 3) * 128 + 128
    rw [e2]; omega

/-- The output array after the kernel: the array of partial sums. -/
theorem final (c : Dev nD) : (dats m 0 c).arrAt 2 cfg0.N = partials m c :=
  (dats m 0 c).arrAt_eq_of_cover 2 (partials m c) (flushed_eq m c) cover

/-! ## The lines after the kernel -/

/-- The sum of all entries from 0, divided by 1024, divided by 128. -/
def tail (part : (⟨S32x8x128, .f32⟩ : BufTy).Contents (Elt Ideal)) : (⟨S_, .f32⟩ : BufTy).Contents (Elt Ideal) :=
  Host.divf (F := Ideal) (Host.divf (F := Ideal)
    (Host.reduceAdd (F := Ideal) part (constant (F := Ideal) S_ .f32 0x00000000#32) reducesTo_S32x8x128_S_d0_1_2 h_S_)
    (constant (F := Ideal) S_ .f32 0x44800000#32)) (constant (F := Ideal) S_ .f32 0x43000000#32)

/-- The program's result buffer after the run is the tail of the array of partial sums. -/
theorem tail_result (c : Dev nD) :
    Pipeline.afterTail₀ cfgs (dats m) 0 (V0 m) [hostOps1] c main_v3 = tail (partials m c) := by
  unfold Pipeline.afterTail₀
  show StableHlo.after hostOps1 _ (Proc.devRef .tc main_v3) = _
  after_results
  rw [(Pipeline.withArrays_arr spec0 launch0.win.arr_inj c _ _ 2).trans (final m c)]
  rfl

/-- 1024 copies: the sum of all entries of the array of partial sums. -/
theorem sum_partials (c : Dev nD) :
    ∑ idx : S32x8x128.Idx, partials m c idx = (1024 : ℕ) • ∑ i : Fin 32, ∑ s : Fin 32, blockSum (X m c) (Y m c) i s := by
  rw [sum_idx3 (n0 := 32) (n1 := 8) (n2 := 128) (partials m c)]
  have hrow : ∀ i : Fin 32, rowTotal m c i.val = ∑ s : Fin 32, blockSum (X m c) (Y m c) i s := by
    intro i
    unfold rowTotal
    rw [zero_add, Finset.sum_range]
    exact Finset.sum_congr rfl fun s _ => ptLoss_eq m c i s
  have hrep : ∀ i : Fin 32, (∑ a : Fin 8, ∑ b : Fin 128, partials m c (ix3 i a b))
      = (1024 : ℕ) • ∑ s : Fin 32, blockSum (X m c) (Y m c) i s := by
    intro i
    show (∑ a : Fin 8, ∑ b : Fin 128, rowTotal m c i.val) = _
    rw [hrow i]
    simp only [Finset.sum_const, Finset.card_univ, Fintype.card_fin, smul_smul, Nat.reduceMul]
  rw [Finset.sum_congr rfl fun i _ => hrep i, ← Finset.smul_sum]

/-- The tail of the array of partial sums: the sum of all cells' losses, divided by 128. -/
theorem tail_partials (c : Dev nD) (i : S_.Idx) :
    tail (partials m c) i = Ideal.div (total (X m c) (Y m c)) (Ideal.ofBits .f32 0x43000000#32) := by
  unfold tail
  show Ideal.div (Ideal.div (Host.reduceAdd (F := Ideal) (partials m c) (constant (F := Ideal) S_ .f32 0x00000000#32)
    reducesTo_S32x8x128_S_d0_1_2 h_S_ i) (Ideal.ofBits .f32 0x44800000#32)) (Ideal.ofBits .f32 0x43000000#32) = _
  have hsum : Host.reduceAdd (F := Ideal) (partials m c) (constant (F := Ideal) S_ .f32 0x00000000#32)
      reducesTo_S32x8x128_S_d0_1_2 h_S_ i = Ideal.ofBits .f32 0x00000000#32 + ∑ idx : S32x8x128.Idx, partials m c idx := by
    simp only [Host.reduceAdd, Ideal.hostReduceAdd_def]
    exact Ideal.hostReduceAdd_total reducesTo_S32x8x128_S_d0_1_2 (fun b => b.elim0) (partials m c) _ i
  rw [hsum, Ideal.ofBits_zero_f32, zero_add, sum_partials, div_nsmul_1024, total_eq_blocks]

/-! ## The run, read -/

theorem main_v3_rest : main_v3 ∈ Pipeline.restRefs sig (cfgs 0).spec := by decide

/-- The kernel program's run with its result named, the arguments unchanged. -/
theorem run : θ_run defs (onTc (τ := τ) (main (F := Ideal))) ⟨m, fun _ => 0, ρ⟩ fun r => ∀ c : Dev nD,
      r.2.mem ((c.tc : Thread nD τ).loc main_v3)
          = (fun _ => Ideal.div (total (X m c) (Y m c)) (Ideal.ofBits .f32 0x43000000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 main_v3_rest).trans ((tail_result m c).trans (funext fun i => tail_partials m c i)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Result

end
-- ==== Proof.RefValue.lean ====
/-
  The reference's result, read off its run: the sum of every cell's loss, divided by 128.

  The reference slices channel 0 and channels 1–4 out of both arrays, forms each cell's loss with whole-array
  operations, adds all 128 · 256 · 256 cells in one sum starting from 0, and divides by 128. Read at a cell
  (b, w, h), each whole-array operation reads its operands at that cell (the slices at the cell's channels), so the
  select there is `cellAt X Y b w h`; the starting 0 disappears (`0 + s = s` on the extended reals).
-/
import proofs.«136722_j10754598109418_1_alg».proof.Defs
import proofs.«136722_j10754598109418_1_alg».proof.Proof.Gen.ReferenceIdeal.Run
import proofs.«136722_j10754598109418_1_alg».proof.Proof.Gen.ReferenceIdeal.Read
import proofs.«136722_j10754598109418_1_alg».proof.Proof.CellLoss
import Idealize.ShloMosaic.Lib.ValueIdx
import Idealize.ShloMosaic.PureOps.Ideal.Laws

noncomputable section

open Idealize.ShloMosaic Idealize.ShloMosaic.TcCoe Idealize.ShloMosaic.ValueIdx Idealize.SL.Sem

namespace Cert.ReferenceIdeal.RefValue

open Cert.ReferenceIdeal Cert.ReferenceIdeal.Gen Cert.ReferenceIdeal.Read Cert.CellLoss

/-! ## Where the slices and the reshape read the arrays -/

/-- Channel 0 of cell j, through the reshape and the slice. -/
theorem idx_chan0 (j : S128x256x256.Idx) : idx_main_v0 (idx_main_v1 j) = ix4 (j 0) (j 1) (j 2) (0 : Fin 5) := by
  have h0 : (j 0).val < 128 := (j 0).isLt
  have h1 : (j 1).val < 256 := (j 1).isLt
  have h2 : (j 2).val < 256 := (j 2).isLt
  funext a
  apply Fin.ext
  match a with
  | ⟨0, _⟩ => show (((j 0).val * 256 + (j 1).val) * 256 + (j 2).val) / 65536 = (j 0).val; omega
  | ⟨1, _⟩ => show (((j 0).val * 256 + (j 1).val) * 256 + (j 2).val) / 256 % 256 = (j 1).val; omega
  | ⟨2, _⟩ => show (((j 0).val * 256 + (j 1).val) * 256 + (j 2).val) / 1 % 256 = (j 2).val; omega
  | ⟨3, _⟩ => rfl

theorem idx_chan0' (j : S128x256x256.Idx) : idx_main_v2 (idx_main_v3 j) = ix4 (j 0) (j 1) (j 2) (0 : Fin 5) := by
  have h0 : (j 0).val < 128 := (j 0).isLt
  have h1 : (j 1).val < 256 := (j 1).isLt
  have h2 : (j 2).val < 256 := (j 2).isLt
  funext a
  apply Fin.ext
  match a with
  | ⟨0, _⟩ => show (((j 0).val * 256 + (j 1).val) * 256 + (j 2).val) / 65536 = (j 0).val; omega
  | ⟨1, _⟩ => show (((j 0).val * 256 + (j 1).val) * 256 + (j 2).val) / 256 % 256 = (j 1).val; omega
  | ⟨2, _⟩ => show (((j 0).val * 256 + (j 1).val) * 256 + (j 2).val) / 1 % 256 = (j 2).val; omega
  | ⟨3, _⟩ => rfl

/-- Channel k + 1 of cell j, through the reduced axis and the slice. -/
theorem idx_chan (j : S128x256x256.Idx) (k : Fin 4) : idx_main_v6 (idx_main_v10 j k) = ix4 (j 0) (j 1) (j 2) k.succ := by
  funext a
  apply Fin.ext
  match a with
  | ⟨0, _⟩ => rfl
  | ⟨1, _⟩ => rfl
  | ⟨2, _⟩ => rfl
  | ⟨3, _⟩ => show 1 + k.val = k.val + 1; omega

theorem idx_chan' (j : S128x256x256.Idx) (k : Fin 4) : idx_main_v7 (idx_main_v10 j k) = ix4 (j 0) (j 1) (j 2) k.succ := by
  funext a
  apply Fin.ext
  match a with
  | ⟨0, _⟩ => rfl
  | ⟨1, _⟩ => rfl
  | ⟨2, _⟩ => rfl
  | ⟨3, _⟩ => show 1 + k.val = k.val + 1; omega

/-! ## The select at a cell is the cell's loss -/

theorem v20_apply (X Y : (⟨S128x256x256x5, .f32⟩ : BufTy).Contents (Elt Ideal)) (j : S128x256x256.Idx) :
    val_main_v20 (F := Ideal) X Y j = cellAt X Y (j 0) (j 1) (j 2) := by
  simp only [val_main_v20_apply, val_main_v5_apply, val_main_v16_apply, val_main_v19_apply, val_main_v12_apply,
    val_main_v15_apply, val_main_v14_apply, val_main_v17_apply, val_main_v18_apply, val_main_v11_apply,
    val_main_v13_apply, val_main_v4_apply, val_main_v3_apply, val_main_v2_apply, val_main_v1_apply, val_main_v0_apply,
    val_main_v10_apply, val_main_v9_apply, val_main_v8_apply, val_main_v6_apply, val_main_v7_apply,
    val_main_cst_apply, val_main_cst_0_apply, val_main_cst_1_apply, val_main_cst_2_apply, val_main_cst_3_apply,
    idx_chan0, idx_chan0', idx_chan, idx_chan']
  unfold cellAt cell
  simp only [Ideal.ofBits_def, Ideal.ofBits_zero_f32, zero_add]
  rfl

/-! ## The result -/

/-- The reference's result: the sum of all cells' losses divided by 128 (the divisor kept as its word). -/
theorem result_eq (X Y : (⟨S128x256x256x5, .f32⟩ : BufTy).Contents (Elt Ideal)) (i : S_.Idx) :
    val_main_v22 (F := Ideal) X Y i = Ideal.div (total X Y) (Ideal.ofBits .f32 0x43000000#32) := by
  rw [val_main_v22_apply, val_main_v21_apply, val_main_cst_4_apply, val_main_cst_5_apply]
  simp only [Ideal.ofBits_def, Ideal.ofBits_zero_f32, zero_add, Ideal.hostDivf_def]
  unfold total
  exact congrArg (Ideal.div · _) (Finset.sum_congr rfl fun j _ => v20_apply X Y j)

/-- The reference's run with its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
          = (fun _ => Ideal.div (total (m ((c.tc : Thread nD τ).loc main_arg0)) (m ((c.tc : Thread nD τ).loc main_arg1)))
              (Ideal.ofBits .f32 0x43000000#32))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      rw [val_main_v22_eq]
      exact funext fun i => result_eq _ _ i), (h c).2⟩)
    (Cert.ReferenceIdeal.Value.run (F := Ideal) m ρ)

end Cert.ReferenceIdeal.RefValue

end
-- ==== Proof.lean ====
/-
  Two programs compute one detection loss over two [128, 256, 256, 5] arrays of predictions and targets: each of
  the 128 · 256 · 256 cells has a loss of its five predicted and five target numbers (a weighted squared error of
  the four coordinates plus a squared confidence error where the target's confidence is positive, half the squared
  confidence elsewhere: Proof/CellLoss.lean), and the result is the sum of all cells' losses divided by 128.

  The reference forms the cells' losses with whole-array operations and adds them in one sum (Proof/RefValue.lean).
  The kernel walks a 32 × 32 grid of [4, 8, 256] tiles of cells: at each point it sums the tile's losses and adds
  the number to a running total that it resets at the start of each row of 32 points (Proof/KernelPieces.lean,
  Proof/KernelTile.lean, Proof/KernelFold.lean, Proof/KernelBlocks.lean); the row totals, each repeated 8 · 128
  times, are added up, divided by 1024 and by 128 (Proof/KernelResult.lean). Over the extended reals a sum may be
  regrouped freely and 1024 copies of a number divided by 1024 are the number, so both results are the same
  extended real whatever the inputs hold: the precondition is not used.

  The kernel's idealization rewrote nothing, so that it is the kernel's sanctioned idealization is trivial; the three
  frame claims are the generated frame runs.
-/
import proofs.«136722_j10754598109418_1_alg».proof.Defs
import proofs.«136722_j10754598109418_1_alg».proof.Proof.Gen.Kernel
import proofs.«136722_j10754598109418_1_alg».proof.Proof.Gen.Kernel.Skeleton
import proofs.«136722_j10754598109418_1_alg».proof.Proof.Gen.Kernel.Launch
import proofs.«136722_j10754598109418_1_alg».proof.Proof.Gen.Kernel.Points
import proofs.«136722_j10754598109418_1_alg».proof.Proof.Gen.Kernel.Frame
import proofs.«136722_j10754598109418_1_alg».proof.Proof.Gen.KernelIdeal
import proofs.«136722_j10754598109418_1_alg».proof.Proof.Gen.KernelIdeal.Skeleton
import proofs.«136722_j10754598109418_1_alg».proof.Proof.Gen.KernelIdeal.Launch
import proofs.«136722_j10754598109418_1_alg».proof.Proof.Gen.KernelIdeal.Points
import proofs.«136722_j10754598109418_1_alg».proof.Proof.Gen.KernelIdeal.Frame
import proofs.«136722_j10754598109418_1_alg».proof.Proof.Gen.ReferenceIdeal
import proofs.«136722_j10754598109418_1_alg».proof.Proof.Gen.ReferenceIdeal.Run
import proofs.«136722_j10754598109418_1_alg».proof.Proof.Gen.Pre_finite_inputs
import proofs.«136722_j10754598109418_1_alg».proof.Proof.KernelResult
import proofs.«136722_j10754598109418_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the sum of all cells' losses divided by 128, of argument arrays that agree. -/
theorem algebraic : Cert.algebraic_KernelIdeal_ReferenceIdeal := by
  intro m ρ m' ρ' _ hagree
  refine ⟨fun c => fun _ => Ideal.div (Cert.CellLoss.total (Cert.KernelIdeal.Blocks.X m c) (Cert.KernelIdeal.Blocks.Y m c))
    (Ideal.ofBits .f32 0x43000000#32), Cert.KernelIdeal.Result.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
